-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S3072x512 : Shape := ⟨2, ![3072, 512]⟩
abbrev S3072 : Shape := ⟨1, ![3072]⟩
abbrev S3072x1024 : Shape := ⟨2, ![3072, 1024]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S3072x512 : S_.BroadcastsInDim S3072x512 (![] : Fin 0 → Fin S3072x512.rank)
  reducesTo_S3072x512_S_d0_1 : S3072x512.ReducesTo [0, 1] S_
  bcast_S_S3072 : S_.BroadcastsInDim S3072 (![] : Fin 0 → Fin S3072.rank)
  reducesTo_S3072_S_d0 : S3072.ReducesTo [0] S_
  bcast_S_S3072x1024 : S_.BroadcastsInDim S3072x1024 (![] : Fin 0 → Fin S3072x1024.rank)
  reducesTo_S3072x1024_S_d0_1 : S3072x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S3072 .f32) (main_arg8 : FVec F S1024x512 .f32) (main_arg9 : FVec F S1024 .f32) (main_arg10 : FVec F S512x512 .f32) (main_arg11 : FVec F S512 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S3072x512 .f32) (main_arg5 : FVec F S3072 .f32) (main_arg6 : FVec F S3072x1024 .f32) (main_arg7 : FVec F S3072 .f32) (main_arg8 : FVec F S1024x512 .f32) (main_arg9 : FVec F S1024 .f32) (main_arg10 : FVec F S512x512 .f32) (main_arg11 : FVec F S512 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S3072x512 .f32 := Host.absf main_arg4
  let main_cst_6 : FVec F S_ .f32 := constant S_ .f32 0x7F800000#32
  let main_v20 : FVec F S3072x512 .f32 := broadcastInDim S3072x512 ![] bcast_S_S3072x512 main_cst_6
  let main_v21 : IVec S3072x512 1 := cmpf .olt main_v19 main_v20
  let main_c_7 : IVec S_ 1 := constantI S_ 1 1#1
  let main_v22 : IVec S_ 1 := (fun x v => Host.reduce IntOp.andi x v reducesTo_S3072x512_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S3072x1024 .f32 := Host.absf main_arg6
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x512 .f32) (main_arg1 : FVec F S16384x1024 .f32) (main_arg2 : FVec F S16384x512 .f32) (main_arg3 : FVec F S16384x512 .f32) (main_arg4 : FVec F S3072x512 .f32) (main_arg5 : FVec F S3072 .f32) (main_arg6 : FVec F S3072x1024 .f32) (main_arg7 : FVec F S3072 .f32) (main_arg8 : FVec F S1024x512 .f32) (main_arg9 : FVec F S1024 .f32) (main_arg10 : FVec F S512x512 .f32) (main_arg11 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_v13 main_v16
-- ==== Kernel.lean ====
abbrev S16384x512 : Shape := ⟨2, ![16384, 512]⟩
abbrev S16384x1024 : Shape := ⟨2, ![16384, 1024]⟩
abbrev S3072x512 : Shape := ⟨2, ![3072, 512]⟩
abbrev S3072 : Shape := ⟨1, ![3072]⟩
abbrev S3072x1024 : Shape := ⟨2, ![3072, 1024]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S1x3072 : Shape := ⟨2, ![1, 3072]⟩
abbrev S1x1024 : Shape := ⟨2, ![1, 1024]⟩
abbrev S1x512 : Shape := ⟨2, ![1, 512]⟩
abbrev S256x512 : Shape := ⟨2, ![256, 512]⟩
abbrev S256x1024 : Shape := ⟨2, ![256, 1024]⟩
abbrev S512x1024 : Shape := ⟨2, ![512, 1024]⟩
abbrev S512x3072 : Shape := ⟨2, ![512, 3072]⟩
abbrev S256x3072 : Shape := ⟨2, ![256, 3072]⟩
abbrev S1024x3072 : Shape := ⟨2, ![1024, 3072]⟩

abbrev nBuf : Space → Nat
  | .hbm => 21
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S3072x512, .f32⟩
  | .hbm, ⟨5, _⟩ => ⟨S3072, .f32⟩
  | .hbm, ⟨6, _⟩ => ⟨S3072x1024, .f32⟩
  | .hbm, ⟨7, _⟩ => ⟨S3072, .f32⟩
  | .hbm, ⟨8, _⟩ => ⟨S1024x512, .f32⟩
  | .hbm, ⟨9, _⟩ => ⟨S1024, .f32⟩
  | .hbm, ⟨10, _⟩ => ⟨S512x512, .f32⟩
  | .hbm, ⟨11, _⟩ => ⟨S512, .f32⟩
  | .hbm, ⟨12, _⟩ => ⟨S3072x512, .bf16⟩
  | .hbm, ⟨13, _⟩ => ⟨S3072x1024, .bf16⟩
  | .hbm, ⟨14, _⟩ => ⟨S1024x512, .bf16⟩
  | .hbm, ⟨15, _⟩ => ⟨S512x512, .bf16⟩
  | .hbm, ⟨16, _⟩ => ⟨S1x3072, .f32⟩
  | .hbm, ⟨17, _⟩ => ⟨S1x3072, .f32⟩
  | .hbm, ⟨18, _⟩ => ⟨S1x1024, .f32⟩
  | .hbm, ⟨19, _⟩ => ⟨S1x512, .f32⟩
  | .hbm, ⟨20, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S3072x512, .bf16⟩
  | .local _ .vmem, ⟨9, _⟩ => ⟨S1x3072, .f32⟩
  | .local _ .vmem, ⟨10, _⟩ => ⟨S3072x1024, .bf16⟩
  | .local _ .vmem, ⟨11, _⟩ => ⟨S1x3072, .f32⟩
  | .local _ .vmem, ⟨12, _⟩ => ⟨S1024x512, .bf16⟩
  | .local _ .vmem, ⟨13, _⟩ => ⟨S1x1024, .f32⟩
  | .local _ .vmem, ⟨14, _⟩ => ⟨S512x512, .bf16⟩
  | .local _ .vmem, ⟨15, _⟩ => ⟨S1x512, .f32⟩
  | .local _ .vmem, ⟨16, _⟩ => ⟨S256x1024, .f32⟩
  | .local _ .vmem, ⟨17, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S3072_S1x3072 : S3072.ShapeCasts S1x3072
  shapeCasts_S1024_S1x1024 : S1024.ShapeCasts S1x1024
  shapeCasts_S512_S1x512 : S512.ShapeCasts S1x512
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  transposes_S3072x512_p1_0_S512x3072 : S3072x512.Transposes [1, 0] S512x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  transposes_S3072x1024_p1_0_S1024x3072 : S3072x1024.Transposes [1, 0] S1024x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x512_S512x1024_S256x1024_1_0_0_1_n_n_wf : DotDims.WF S256x512 S512x1024 S256x1024 [1] [0] [0] [1] [] []
  dot_S256x512_S512x512_S256x512_1_0_0_1_n_n_wf : DotDims.WF S256x512 S512x512 S256x512 [1] [0] [0] [1] [] []
  dot_S256x512_S512x3072_S256x3072_1_0_0_1_n_n_wf : DotDims.WF S256x512 S512x3072 S256x3072 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S16384x512.size a
  hwx0_3 : ∀ i : grid0.Coords, EltTy.bits .f32 = 32 ∨ (Rect.block (s := S16384x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x512.size a ≤ S3072x512.size a
  hwx0_4 : ∀ i : grid0.Coords, EltTy.bits .bf16 = 32 ∨ (Rect.block (s := S3072x512) S3072x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3072x1024.size a ≤ S3072x1024.size a
  hwx0_6 : ∀ i : grid0.Coords, EltTy.bits .bf16 = 32 ∨ (Rect.block (s := S3072x1024) S3072x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3072.size a ≤ S1x3072.size a
  hwx0_7 : ∀ i : grid0.Coords, EltTy.bits .f32 = 32 ∨ (Rect.block (s := S1x3072) S1x3072.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .bf16 = 32 ∨ (Rect.block (s := S1024x512) S1024x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S16384x1024.size a
  hwx0_12 : ∀ i : grid0.Coords, EltTy.bits .f32 = 32 ∨ (Rect.block (s := S16384x1024) S256x1024.size (cc0_transform_12 i) (hinb0_12 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x3072_S256x3072_1_0_0_1_n_n : DotDims S256x512 S512x3072 S256x3072 where
  lhsContracting := [1]
  rhsContracting := [0]
  lhsNonContracting := [0]
  rhsNonContracting := [1]
  lhsBatch := []
  rhsBatch := []
  wf := dot_S256x512_S512x3072_S256x3072_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S3072x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S3072x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S3072x512 : Shape := ⟨2, ![3072, 512]⟩
abbrev S3072 : Shape := ⟨1, ![3072]⟩
abbrev S3072x1024 : Shape := ⟨2, ![3072, 1024]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S512x1024 : Shape := ⟨2, ![512, 1024]⟩
abbrev S1x1024 : Shape := ⟨2, ![1, 1024]⟩
abbrev S_ : Shape := ⟨0, ![]⟩
abbrev S1x512 : Shape := ⟨2, ![1, 512]⟩
abbrev S512x3072 : Shape := ⟨2, ![512, 3072]⟩
abbrev S16384x3072 : Shape := ⟨2, ![16384, 3072]⟩
abbrev S1x3072 : Shape := ⟨2, ![1, 3072]⟩
abbrev S1024x3072 : Shape := ⟨2, ![1024, 3072]⟩

abbrev nBuf : Space → Nat
  | .hbm => 83
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S3072x512, .f32⟩
  | .hbm, ⟨5, _⟩ => ⟨S3072, .f32⟩
  | .hbm, ⟨6, _⟩ => ⟨S3072x1024, .f32⟩
  | .hbm, ⟨7, _⟩ => ⟨S3072, .f32⟩
  | .hbm, ⟨8, _⟩ => ⟨S1024x512, .f32⟩
  | .hbm, ⟨9, _⟩ => ⟨S1024, .f32⟩
  | .hbm, ⟨10, _⟩ => ⟨S512x512, .f32⟩
  | .hbm, ⟨11, _⟩ => ⟨S512, .f32⟩
  | .hbm, ⟨12, _⟩ => ⟨S512x1024, .f32⟩
  | .hbm, ⟨13, _⟩ => ⟨S16384x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S512x512, .f32⟩
  | .hbm, ⟨24, _⟩ => ⟨S16384x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S512x3072, .f32⟩
  | .hbm, ⟨41, _⟩ => ⟨S16384x3072, .f32⟩
  | .hbm, ⟨42, _⟩ => ⟨S1x3072, .f32⟩
  | .hbm, ⟨43, _⟩ => ⟨S16384x3072, .f32⟩
  | .hbm, ⟨44, _⟩ => ⟨S16384x3072, .f32⟩
  | .hbm, ⟨45, _⟩ => ⟨S1024x3072, .f32⟩
  | .hbm, ⟨46, _⟩ => ⟨S16384x3072, .f32⟩
  | .hbm, ⟨47, _⟩ => ⟨S1x3072, .f32⟩
  | .hbm, ⟨48, _⟩ => ⟨S16384x3072, .f32⟩
  | .hbm, ⟨49, _⟩ => ⟨S16384x3072, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_cst : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_0 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_2 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S3072x512_S512x3072_1_0 : S3072x512.Transposes [1, 0] S512x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  transposes_S3072x1024_S1024x3072_1_0 : S3072x1024.Transposes [1, 0] S1024x3072
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  dot_S16384x512_S512x1024_S16384x1024_1_0_0_1_n_n_wf : DotDims.WF S16384x512 S512x1024 S16384x1024 [1] [0] [0] [1] [] []
  dot_S16384x512_S512x512_S16384x512_1_0_0_1_n_n_wf : DotDims.WF S16384x512 S512x512 S16384x512 [1] [0] [0] [1] [] []
  dot_S16384x512_S512x3072_S16384x3072_1_0_0_1_n_n_wf : DotDims.WF S16384x512 S512x3072 S16384x3072 [1] [0] [0] [1] [] []
  dot_S16384x1024_S1024x3072_S16384x3072_1_0_0_1_n_n_wf : DotDims.WF S16384x1024 S1024x3072 S16384x3072 [1] [0] [0] [1] [] []

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x3072_S16384x3072_1_0_0_1_n_n : DotDims S16384x512 S512x3072 S16384x3072 where
  lhsContracting := [1]
  rhsContracting := [0]
  lhsNonContracting := [0]
  rhsNonContracting := [1]
  lhsBatch := []
  rhsBatch := []
  wf := dot_S16384x512_S512x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.Spec.lean ====
/-
  The GRU-D cell as mathematics, one batch row at a time.

  A batch row carries an input row `xr`, its observation mask `mr`, the time gaps `dr` (each of length 512) and the
  previous hidden row `hr` (length 1024). With the weights shared by all rows:
    * the hidden state decays, `hdec j = exp (-(max (∑ k, dr k · Wdh j k + bdh j) 0)) · hr j`;
    * a missing input entry decays the same way and is blended with the mask,
      `xin i = mr i · xr i + (1 - mr i) · (exp (-(max (∑ k, xr k · Wdx i k + bdx i) 0)) · xr i)`;
    * the two gate pre-activations are the affine maps `gi = Wih · xin + bih` and `gh = Whh · hdec + bhh` (length 3072,
      three stacked thirds: reset, update, candidate);
    * the new hidden entry is `(1 - u) · n + u · hdec j` with `r = σ (gi₀ + gh₀)`, `u = σ (gi₁ + gh₁)`,
      `n = tanh (gi₂ + r · gh₂)`, σ the logistic function and the subscript the third of the stacked vector.
  Everything is read on the extended reals: sums, products, `max`, `exp`, `tanh` and the logistic function are the
  exact ones, so the definitions below make sense at infinite entries too, and no finiteness is needed to state them.
-/
import Idealize.ShloMosaic.PureOps.Ideal
import Idealize.ShloMosaic.Lib.ValueIdx

noncomputable section

open scoped BigOperators

namespace Cert.GruD

open Idealize.ShloMosaic Idealize.ShloMosaic.ValueIdx

/-- The decayed hidden row: `exp (-(relu (Wdh · dr + bdh))) ⊙ hr`. -/
def hdec (dr : Fin 512 → EReal) (hr : Fin 1024 → EReal) (Wdh : Fin 1024 → Fin 512 → EReal) (bdh : Fin 1024 → EReal)
    (j : Fin 1024) : EReal :=
  Ideal.exp (-(max (∑ k : Fin 512, dr k * Wdh j k + bdh j) 0)) * hr j

/-- The blended input row: an observed entry is kept, a missing one is decayed by `exp (-(relu (Wdx · xr + bdx)))`. -/
def xin (xr mr : Fin 512 → EReal) (Wdx : Fin 512 → Fin 512 → EReal) (bdx : Fin 512 → EReal) (i : Fin 512) : EReal :=
  mr i * xr i + (1 - mr i) * (Ideal.exp (-(max (∑ k : Fin 512, xr k * Wdx i k + bdx i) 0)) * xr i)

/-- The input-side gate pre-activations `Wih · v + bih`. -/
def gi (v : Fin 512 → EReal) (Wih : Fin 3072 → Fin 512 → EReal) (bih : Fin 3072 → EReal) (n : Fin 3072) : EReal :=
  ∑ k : Fin 512, v k * Wih n k + bih n

/-- The hidden-side gate pre-activations `Whh · v + bhh`. -/
def gh (v : Fin 1024 → EReal) (Whh : Fin 3072 → Fin 1024 → EReal) (bhh : Fin 3072 → EReal) (n : Fin 3072) : EReal :=
  ∑ k : Fin 1024, v k * Whh n k + bhh n

/-- Entry `j` of the first third (reset gate) of a stacked vector of length 3072. -/
def lo (j : Fin 1024) : Fin 3072 := ⟨j.val, by have := j.isLt; omega⟩
/-- Entry `j` of the second third (update gate). -/
def mid (j : Fin 1024) : Fin 3072 := ⟨1024 + j.val, by have := j.isLt; omega⟩
/-- Entry `j` of the last third (candidate). -/
def hi (j : Fin 1024) : Fin 3072 := ⟨2048 + j.val, by have := j.isLt; omega⟩

/-- The GRU update of one hidden entry from the two stacked pre-activation vectors and the decayed hidden row. -/
def mix (a b : Fin 3072 → EReal) (hd : Fin 1024 → EReal) (j : Fin 1024) : EReal :=
  (1 - Ideal.logistic (a (mid j) + b (mid j)))
      * Ideal.tanh (a (hi j) + Ideal.logistic (a (lo j) + b (lo j)) * b (hi j))
    + Ideal.logistic (a (mid j) + b (mid j)) * hd j

/-- The new hidden entry `j` of one batch row. -/
def cell (xr mr dr : Fin 512 → EReal) (hr : Fin 1024 → EReal)
    (Wih : Fin 3072 → Fin 512 → EReal) (bih : Fin 3072 → EReal)
    (Whh : Fin 3072 → Fin 1024 → EReal) (bhh : Fin 3072 → EReal)
    (Wdh : Fin 1024 → Fin 512 → EReal) (bdh : Fin 1024 → EReal)
    (Wdx : Fin 512 → Fin 512 → EReal) (bdx : Fin 512 → EReal) (j : Fin 1024) : EReal :=
  mix (gi (xin xr mr Wdx bdx) Wih bih) (gh (hdec dr hr Wdh bdh) Whh bhh) (hdec dr hr Wdh bdh) j

/-- THE RESULT ARRAY of the whole batch (16384 rows): entry `(b, j)` is the cell of row `b` of the four batch arrays
    `x`, `h`, `mask`, `delta`. Both programs end with this array. -/
def G (x : (⟨2, ![16384, 512]⟩ : Shape).Idx → EReal) (h : (⟨2, ![16384, 1024]⟩ : Shape).Idx → EReal)
    (mask delta : (⟨2, ![16384, 512]⟩ : Shape).Idx → EReal)
    (Wih : Fin 3072 → Fin 512 → EReal) (bih : Fin 3072 → EReal)
    (Whh : Fin 3072 → Fin 1024 → EReal) (bhh : Fin 3072 → EReal)
    (Wdh : Fin 1024 → Fin 512 → EReal) (bdh : Fin 1024 → EReal)
    (Wdx : Fin 512 → Fin 512 → EReal) (bdx : Fin 512 → EReal) : (⟨2, ![16384, 1024]⟩ : Shape).Idx → EReal :=
  fun i =>
    cell (fun k => x (ix2 (⟨(i 0).val, (i 0).isLt⟩ : Fin 16384) k)) (fun k => mask (ix2 (⟨(i 0).val, (i 0).isLt⟩ : Fin 16384) k))
      (fun k => delta (ix2 (⟨(i 0).val, (i 0).isLt⟩ : Fin 16384) k)) (fun k => h (ix2 (⟨(i 0).val, (i 0).isLt⟩ : Fin 16384) k))
      Wih bih Whh bhh Wdh bdh Wdx bdx (⟨(i 1).val, (i 1).isLt⟩ : Fin 1024)

/-- At `(b, j)` the result array is the cell of row `b`. -/
theorem G_ix2 (x : (⟨2, ![16384, 512]⟩ : Shape).Idx → EReal) (h : (⟨2, ![16384, 1024]⟩ : Shape).Idx → EReal)
    (mask delta : (⟨2, ![16384, 512]⟩ : Shape).Idx → EReal)
    (Wih : Fin 3072 → Fin 512 → EReal) (bih : Fin 3072 → EReal)
    (Whh : Fin 3072 → Fin 1024 → EReal) (bhh : Fin 3072 → EReal)
    (Wdh : Fin 1024 → Fin 512 → EReal) (bdh : Fin 1024 → EReal)
    (Wdx : Fin 512 → Fin 512 → EReal) (bdx : Fin 512 → EReal) (b : Fin 16384) (j : Fin 1024) :
    G x h mask delta Wih bih Whh bhh Wdh bdh Wdx bdx (ix2 b j)
      = cell (fun k => x (ix2 b k)) (fun k => mask (ix2 b k)) (fun k => delta (ix2 b k)) (fun k => h (ix2 b k))
          Wih bih Whh bhh Wdh bdh Wdx bdx j := rfl

end Cert.GruD

end
-- ==== Proof.LibMatrixEntries.lean ====
/-
  Small facts about matrices laid out as rank-2 arrays, read one entry at a time on the extended reals: a plain
  matrix product into a zero accumulator is the sum of products along the contracted axis; a transpose swaps the two
  coordinates; a one-row matrix broadcast down the rows repeats the row; a window of consecutive columns shifts the
  column coordinate; and the exponential, hyperbolic tangent and logistic function act entry by entry.
-/
import Idealize.ShloMosaic.PureOps.Ideal.Laws
import Idealize.ShloMosaic.Lib.ValueIdx
import Idealize.ShloMosaic.Lib.Pipeline.Value

noncomputable section

open scoped BigOperators

namespace Cert.GruD

open Idealize.ShloMosaic Idealize.ShloMosaic.ValueIdx

section Product
variable (M K N : Nat)

/-- In a plain `M×K` by `K×N` product the left operand's row is the result's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contracted coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row is the contracted coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column is the result's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(p, n)` of a plain matrix product accumulated into zero is `∑ k, a (p, k) · b (k, n)`. -/
theorem plain_matmul_apply {φ₁ φ₂ : FTy} (prec : Option ContractPrecision)
    (a : FVec Ideal (⟨2, ![M, K]⟩ : Shape) φ₁) (b : FVec Ideal (⟨2, ![K, N]⟩ : Shape) φ₂) (p : Fin M) (n : Fin N) :
    FloatOps.matmul (DotDims.plain M K N) prec a b (constant (⟨2, ![M, N]⟩ : Shape) .f32 0x00000000#32) (ix2 p n)
      = ∑ k : Fin K, a (ix2 p k) * b (ix2 k n) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun d => Fin.ext (by
      match d with
      | ⟨0, _⟩ => exact plain_lhs_row M K N _ _
      | ⟨1, _⟩ => exact (plain_lhs_col M K N _ _).trans hk)
  have er : (DotDims.plain M K N).rhsIdx (ix2 p n) ((contrEquiv1 (DotDims.plain M K N) K rfl rfl).symm k) = ix2 k n :=
    funext fun d => Fin.ext (by
      match d with
      | ⟨0, _⟩ => exact (plain_rhs_row M K N _ _).trans hk
      | ⟨1, _⟩ => exact plain_rhs_col M K N _ _)
  rw [el, er]

/-- The same for any dimension record that is the plain one. -/
theorem matmul_apply_of_plain {φ₁ φ₂ : FTy} (D : DotDims (⟨2, ![M, K]⟩ : Shape) ⟨2, ![K, N]⟩ ⟨2, ![M, N]⟩)
    (hD : D = DotDims.plain M K N) (prec : Option ContractPrecision)
    (a : FVec Ideal (⟨2, ![M, K]⟩ : Shape) φ₁) (b : FVec Ideal (⟨2, ![K, N]⟩ : Shape) φ₂) (p : Fin M) (n : Fin N) :
    matmul D prec a b (constant (⟨2, ![M, N]⟩ : Shape) .f32 0x00000000#32) (ix2 p n)
      = ∑ k : Fin K, a (ix2 p k) * b (ix2 k n) := by
  subst hD
  exact plain_matmul_apply M K N prec a b p n

end Product

section Layout
variable {α : Type}

/-- A transposed matrix at `(k, n)` is the matrix at `(n, k)`. -/
theorem transpose_ix2 {N K : Nat} (x : (⟨2, ![N, K]⟩ : Shape).Idx → α)
    (h : (⟨2, ![N, K]⟩ : Shape).Transposes [1, 0] ⟨2, ![K, N]⟩) (k : Fin K) (n : Fin N) :
    transpose (⟨2, ![K, N]⟩ : Shape) [1, 0] x h (ix2 k n) = x (ix2 n k) :=
  transpose_apply [1, 0] x h (ix2 k n) (ix2 n k) (fun b => match b with
    | ⟨0, _⟩ => rfl
    | ⟨1, _⟩ => rfl)

/-- A one-row matrix broadcast down `M` rows, at `(p, n)`, is the row at `n`. -/
theorem broadcastTo_row_ix2 {M N : Nat} (x : (⟨2, ![1, N]⟩ : Shape).Idx → α)
    (h : (⟨2, ![1, N]⟩ : Shape).Broadcasts ⟨2, ![M, N]⟩) (p : Fin M) (n : Fin N) :
    broadcastTo (⟨2, ![M, N]⟩ : Shape) x h (ix2 p n) = x (ix2 (0 : Fin 1) n) :=
  broadcastTo_apply x h (ix2 p n) (ix2 (0 : Fin 1) n) (fun a => match a with
    | ⟨0, _⟩ => rfl
    | ⟨1, _⟩ => by
      show n.val = if N = 1 then 0 else n.val
      split
      · have := n.isLt; omega
      · rfl)

/-- The window of `N` consecutive columns starting at column `c`, at `(p, n)`, is the matrix at `(p, c + n)`. -/
theorem slice_cols_ix2 {M W N : Nat} (c : Nat) (x : (⟨2, ![M, W]⟩ : Shape).Idx → α)
    (h : (⟨2, ![M, W]⟩ : Shape).Slices ![0, c] ⟨2, ![M, N]⟩) (p : Fin M) (n : Fin N) (q : Fin W)
    (hq : q.val = c + n.val) :
    extractStridedSlice (⟨2, ![M, N]⟩ : Shape) ![0, c] x h (ix2 p n) = x (ix2 p q) :=
  extractStridedSlice_apply ![0, c] x h (ix2 p n) (ix2 p q) (fun a => match a with
    | ⟨0, _⟩ => (Nat.zero_add _).symm
    | ⟨1, _⟩ => hq)

/-- A one-row matrix (through a cast to its own shape) broadcast down `M` rows: the bias row added to every row. -/
theorem bias_row_ix2 {M N : Nat} (x : (⟨2, ![1, N]⟩ : Shape).Idx → α)
    (hs : (⟨2, ![1, N]⟩ : Shape).ShapeCasts ⟨2, ![1, N]⟩) (h : (⟨2, ![1, N]⟩ : Shape).Broadcasts ⟨2, ![M, N]⟩)
    (p : Fin M) (n : Fin N) :
    broadcastTo (⟨2, ![M, N]⟩ : Shape) (shapeCast (⟨2, ![1, N]⟩ : Shape) x hs) h (ix2 p n) = x (ix2 (0 : Fin 1) n) :=
  (broadcastTo_row_ix2 _ h p n).trans (congrFun (shapeCast_self x hs) _)

end Layout

section ProductWithTransposedWeight
variable (M K N : Nat)

/-- Entry `(p, n)` of `a · wᵀ` for a weight stored as `N×K`: `∑ k, a (p, k) · w (n, k)`. -/
theorem matmul_transposed_weight_apply {φ₁ φ₂ : FTy}
    (D : DotDims (⟨2, ![M, K]⟩ : Shape) ⟨2, ![K, N]⟩ ⟨2, ![M, N]⟩) (hD : D = DotDims.plain M K N)
    (prec : Option ContractPrecision) (a : FVec Ideal (⟨2, ![M, K]⟩ : Shape) φ₁) (w : FVec Ideal (⟨2, ![N, K]⟩ : Shape) φ₂)
    (hs : (⟨2, ![N, K]⟩ : Shape).ShapeCasts ⟨2, ![N, K]⟩) (ht : (⟨2, ![N, K]⟩ : Shape).Transposes [1, 0] ⟨2, ![K, N]⟩)
    (p : Fin M) (n : Fin N) :
    matmul D prec a (transpose (⟨2, ![K, N]⟩ : Shape) [1, 0] (shapeCast (⟨2, ![N, K]⟩ : Shape) w hs) ht)
        (constant (⟨2, ![M, N]⟩ : Shape) .f32 0x00000000#32) (ix2 p n)
      = ∑ k : Fin K, a (ix2 p k) * w (ix2 n k) := by
  refine (matmul_apply_of_plain M K N D hD prec a _ p n).trans (Finset.sum_congr rfl fun k _ => ?_)
  rw [transpose_ix2, shapeCast_self]

end ProductWithTransposedWeight

section Pointwise
variable {s : Shape} {φ : FTy}

theorem exp_apply (a : FVec Ideal s φ) (i : s.Idx) : exp a i = Ideal.exp (a i) := rfl
theorem tanh_apply (a : FVec Ideal s φ) (i : s.Idx) : tanh a i = Ideal.tanh (a i) := rfl
theorem logistic_apply (a : FVec Ideal s φ) (i : s.Idx) : logistic a i = Ideal.logistic (a i) := rfl

end Pointwise

end Cert.GruD

end
-- ==== Proof.KernelCell.lean ====
/-
  What the kernel body computes for one block of 256 batch rows, entry by entry: each of the body's five vector values
  at row `p` is the corresponding piece of the GRU-D cell of that row (`Cert.GruD`), the weights being the resident
  blocks. The body negates by `0 - y`, which is `-y` on the extended reals; its literal `1.0` is the real one; its
  format changes are the identity; a product with a transposed weight block is the row-by-row sum of products.
-/
import proofs.«179894_j34333968564821_1_alg».proof.Proof.Gen.KernelIdeal.Skeleton
import proofs.«179894_j34333968564821_1_alg».proof.Proof.Spec
import proofs.«179894_j34333968564821_1_alg».proof.Proof.LibMatrixEntries
import Idealize.ShloMosaic.Lib.IdealHost

noncomputable section

open scoped BigOperators

namespace Cert.KernelIdeal.Cell

open Cert.KernelIdeal Cert.KernelIdeal.Gen Idealize.ShloMosaic Idealize.ShloMosaic.ValueIdx Cert.GruD

/-- Row `p` of a block with 512 columns. -/
abbrev row512 (v : S256x512.Idx → EReal) (p : Fin 256) : Fin 512 → EReal := fun k => v (ix2 p k)
/-- Row `p` of a block with 1024 columns. -/
abbrev row1024 (v : S256x1024.Idx → EReal) (p : Fin 256) : Fin 1024 → EReal := fun k => v (ix2 p k)

/-- The decayed hidden block, entry `(p, j)`. -/
theorem hdec_entry (v1 : Vec Ideal S256x1024 .f32) (v3 : Vec Ideal S256x512 .f32) (v5 : Vec Ideal S1024x512 .bf16)
    (v9 : Vec Ideal S1x1024 .f32) (p : Fin 256) (j : Fin 1024) :
    k0_pay2 (F := Ideal) v1 v3 v5 v9 (ix2 p j)
      = hdec (row512 v3 p) (row1024 v1 p) (fun n k => v5 (ix2 n k)) (fun n => v9 (ix2 (0 : Fin 1) n)) j := by
  unfold k0_pay2 hdec
  simp only [mulf_apply, exp_apply, subf_apply, maximumf_apply, addf_apply, broadcast_apply, truncf_apply,
    matmul_transposed_weight_apply 256 512 1024 dot_S256x512_S512x1024_S256x1024_1_0_0_1_n_n rfl,
    bias_row_ix2, Ideal.ofBits_def, Ideal.ofBits_zero_f32, zero_sub]

/-- The decay factor of a missing input entry, entry `(p, i)`. -/
theorem xdecay_entry (v0 : Vec Ideal S256x512 .f32) (v20 : Vec Ideal S512x512 .bf16) (v24 : Vec Ideal S1x512 .f32)
    (p : Fin 256) (i : Fin 512) :
    k0_pay3 (F := Ideal) v0 v20 v24 (ix2 p i)
      = Ideal.exp (-(max (∑ k : Fin 512, v0 (ix2 p k) * v20 (ix2 i k) + v24 (ix2 (0 : Fin 1) i)) 0)) := by
  unfold k0_pay3
  simp only [exp_apply, subf_apply, maximumf_apply, addf_apply, broadcast_apply, truncf_apply,
    matmul_transposed_weight_apply 256 512 512 dot_S256x512_S512x512_S256x512_1_0_0_1_n_n rfl,
    bias_row_ix2, Ideal.ofBits_def, Ideal.ofBits_zero_f32, zero_sub]

/-- The observed part of the input, entry `(p, i)`: mask times input. -/
theorem observed_entry (v0 v2 : Vec Ideal S256x512 .f32) (p : Fin 256) (i : Fin 512) :
    k0_pay4 (F := Ideal) v0 v2 (ix2 p i) = v2 (ix2 p i) * v0 (ix2 p i) := rfl

/-- The complement of the mask, entry `(p, i)`. -/
theorem unobserved_entry (v2 : Vec Ideal S256x512 .f32) (p : Fin 256) (i : Fin 512) :
    k0_pay5 (F := Ideal) v2 (ix2 p i) = 1 - v2 (ix2 p i) := by
  unfold k0_pay5
  simp only [subf_apply, broadcast_apply, Ideal.ofBits_def, Ideal.ofBits_one_f32]

/-- The stored value, entry `(p, j)`, from the four intermediate blocks: the GRU update of the two gate
    pre-activations, whose three thirds are the three column windows of the `256×3072` products. -/
theorem update_entry (v0 : Vec Ideal S256x512 .f32) (v18 : FVec Ideal S256x1024 .f32) (v32 v33 v35 : FVec Ideal S256x512 .f32)
    (v40 : Vec Ideal S3072x512 .bf16) (v44 : Vec Ideal S1x3072 .f32) (v49 : Vec Ideal S3072x1024 .bf16)
    (v53 : Vec Ideal S1x3072 .f32) (p : Fin 256) (j : Fin 1024) :
    k0_pay1 (F := Ideal) v0 v18 v32 v33 v35 v40 v44 v49 v53 (ix2 p j)
      = mix (gi (fun i => v33 (ix2 p i) + v35 (ix2 p i) * (v32 (ix2 p i) * v0 (ix2 p i))) (fun n k => v40 (ix2 n k))
              (fun n => v44 (ix2 (0 : Fin 1) n)))
            (gh (row1024 v18 p) (fun n k => v49 (ix2 n k)) (fun n => v53 (ix2 (0 : Fin 1) n)))
            (row1024 v18 p) j := by
  unfold k0_pay1 mix gi gh
  simp only [mulf_apply, addf_apply, subf_apply, tanh_apply, logistic_apply, broadcast_apply, truncf_apply,
    fun x h => slice_cols_ix2 (M := 256) (W := 3072) (N := 1024) (α := EReal) 0 x h p j (lo j) (Nat.zero_add _).symm,
    fun x h => slice_cols_ix2 (M := 256) (W := 3072) (N := 1024) (α := EReal) 1024 x h p j (mid j) rfl,
    fun x h => slice_cols_ix2 (M := 256) (W := 3072) (N := 1024) (α := EReal) 2048 x h p j (hi j) rfl,
    matmul_transposed_weight_apply 256 512 3072 dot_S256x512_S512x3072_S256x3072_1_0_0_1_n_n rfl,
    matmul_transposed_weight_apply 256 1024 3072 dot_S256x1024_S1024x3072_S256x3072_1_0_0_1_n_n rfl,
    bias_row_ix2, Ideal.ofBits_def, Ideal.ofBits_one_f32]

/-- THE BODY'S RESULT for one block, entry `(p, j)`: the GRU-D cell of row `p` of the four batch blocks `x`, `h`,
    `mask`, `delta` with the resident weight and bias blocks. -/
theorem body_entry (x0 : Vec Ideal S256x512 .f32) (x1 : Vec Ideal S256x1024 .f32) (x2 x3 : Vec Ideal S256x512 .f32)
    (x4 : Vec Ideal S3072x512 .bf16) (x5 : Vec Ideal S1x3072 .f32) (x6 : Vec Ideal S3072x1024 .bf16)
    (x7 : Vec Ideal S1x3072 .f32) (x8 : Vec Ideal S1024x512 .bf16) (x9 : Vec Ideal S1x1024 .f32)
    (x10 : Vec Ideal S512x512 .bf16) (x11 : Vec Ideal S1x512 .f32) (p : Fin 256) (j : Fin 1024) :
    k0_pay1 (F := Ideal) x0 (k0_pay2 x1 x3 x8 x9) (k0_pay3 x0 x10 x11) (k0_pay4 x0 x2) (k0_pay5 x2) x4 x5 x6 x7 (ix2 p j)
      = cell (row512 x0 p) (row512 x2 p) (row512 x3 p) (row1024 x1 p)
          (fun n k => x4 (ix2 n k)) (fun n => x5 (ix2 (0 : Fin 1) n))
          (fun n k => x6 (ix2 n k)) (fun n => x7 (ix2 (0 : Fin 1) n))
          (fun n k => x8 (ix2 n k)) (fun n => x9 (ix2 (0 : Fin 1) n))
          (fun n k => x10 (ix2 n k)) (fun n => x11 (ix2 (0 : Fin 1) n)) j := by
  rw [update_entry]
  unfold cell
  have hd : row1024 (k0_pay2 (F := Ideal) x1 x3 x8 x9) p
      = hdec (row512 x3 p) (row1024 x1 p) (fun n k => x8 (ix2 n k)) (fun n => x9 (ix2 (0 : Fin 1) n)) :=
    funext fun j' => hdec_entry x1 x3 x8 x9 p j'
  have hx : (fun i => k0_pay4 (F := Ideal) x0 x2 (ix2 p i) + k0_pay5 (F := Ideal) x2 (ix2 p i) * (k0_pay3 (F := Ideal) x0 x10 x11 (ix2 p i) * x0 (ix2 p i)))
      = xin (row512 x0 p) (row512 x2 p) (fun n k => x10 (ix2 n k)) (fun n => x11 (ix2 (0 : Fin 1) n)) :=
    funext fun i => by rw [observed_entry, unobserved_entry, xdecay_entry]; rfl
  rw [hd, hx]

end Cert.KernelIdeal.Cell

end
-- ==== Proof.KernelArrayBlocks.lean ====
/-
  The kernel's windows read as rows of the arguments. The grid has 64 points; point `t` fetches rows
  `256 t … 256 t + 255` of a batch array (shown here for `x`), and keeps a weight (shown for `Wih`: its conversion to a
  narrower float format is the identity on the extended reals) and a bias (shown for `bih`: reshaped to one row) whole.
  The other windows read the same way.
-/
import proofs.«179894_j34333968564821_1_alg».proof.Proof.Gen.KernelIdeal.Value
import proofs.«179894_j34333968564821_1_alg».proof.Proof.KernelCell
import Idealize.ShloMosaic.Lib.Pipeline.Value
import Idealize.ShloMosaic.Lib.StableHlo.Run

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.GruD
open Idealize.ShloMosaic.Pipeline (Dat)

variable (m : (ℓ : Loc nD τ sig) → Buf (Elt Ideal) ℓ) (ρ : Dev nD → PrngReg)

/-- The converted weight `Wih` the region finds is the argument itself: a change of float format is the identity. -/
theorem V_Wih (c : Dev nD) : (V m c main_v0 : S3072x512.Idx → EReal) = m ((c : Thread nD τ).loc main_arg4) := by
  dsimp only [Gen.V, Gen.hostOps0]
  after_results
  rfl

/-- The bias `bih` as the one-row matrix the region finds. -/
theorem V_bih (c : Dev nD) : (V m c main_v4 : S1x3072.Idx → EReal)
    = shapeCast S1x3072 (m ((c : Thread nD τ).loc main_arg5) : S3072.Idx → EReal) shapeCasts_S3072_S1x3072 := by
  dsimp only [Gen.V, Gen.hostOps0]
  after_results
  rfl

/-- The index maps, decided over the 64 grid points: a batch window's block index is the point on the row axis and
    zero on the column axis; a resident window's block index is zero on both. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0) :=
  (by decide +kernel : ∀ t : Fin grid0.N, _)

/-- Row `p` of the `x` block at point `t` is row `256 t + p` of `x`. -/
theorem blk_x (c : Dev nD) (t : Fin cfg0.N) (p : Fin 256) (k : Fin 512) (b : Fin 16384) (hb : b.val = 256 * t.val + p.val) :
    (iblk m c 0 t : Vec Ideal S256x512 .f32) (ix2 p k)
      = (m ((c : Thread nD τ).loc main_arg0) : S16384x512.Idx → EReal) (ix2 b k) := by
  have hi := (idx_facts t).1
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 256 + 1 * p.val = b.val; rw [hi.1, hb]; omega
  | ⟨1, _⟩ => show win0_0.index t (1 : Fin 2) * 512 + 1 * k.val = k.val; rw [hi.2]; omega

/-- The resident `Wih` block is the whole weight. -/
theorem blk_Wih (c : Dev nD) (t : Fin cfg0.N) (n : Fin 3072) (k : Fin 512) :
    (iblk m c 4 t : Vec Ideal S3072x512 .bf16) (ix2 n k)
      = (m ((c : Thread nD τ).loc main_arg4) : S3072x512.Idx → EReal) (ix2 n k) := by
  have hi := (idx_facts t).2.2.2.2.1
  unfold iblk
  rw [View.read_apply]
  show (V m c main_v0 : S3072x512.Idx → EReal) _ = m (c.tc.loc main_arg4) _
  rw [V_Wih]
  congr 1
  funext a
  apply Fin.ext
  match a with
  | ⟨0, _⟩ => show win0_4.index t (0 : Fin 2) * 3072 + 1 * n.val = n.val; rw [hi.1]; omega
  | ⟨1, _⟩ => show win0_4.index t (1 : Fin 2) * 512 + 1 * k.val = k.val; rw [hi.2]; omega

/-- The resident `bih` block is the bias laid as one row. -/
theorem blk_bih (c : Dev nD) (t : Fin cfg0.N) (n : Fin 3072) :
    (iblk m c 5 t : Vec Ideal S1x3072 .f32) (ix2 (0 : Fin 1) n)
      = (m ((c : Thread nD τ).loc main_arg5) : S3072.Idx → EReal) (ix1 n) := by
  have hi := (idx_facts t).2.2.2.2.2.1
  unfold iblk
  rw [View.read_apply]
  show (V m c main_v4 : S1x3072.Idx → EReal) _ = m (c.tc.loc main_arg5) _
  rw [V_bih]
  refine shapeCast_apply _ shapeCasts_S3072_S1x3072 _ (ix1 n) ?_
  rw [Shape.rowMajor_val_two, Shape.rowMajor_val_one]
  show n.val = (win0_5.index t (0 : Fin 2) * 1 + 1 * 0) * 3072 + (win0_5.index t (1 : Fin 2) * 3072 + 1 * n.val)
  rw [hi.1, hi.2]; omega

end Cert.KernelIdeal.Whole

end
-- ==== Proof.KernelArraySiblings.lean ====
import proofs.«179894_j34333968564821_1_alg».proof.Proof.KernelArrayBlocks

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.GruD
open Idealize.ShloMosaic.Pipeline (Dat)

variable (m : (ℓ : Loc nD τ sig) → Buf (Elt Ideal) ℓ) (ρ : Dev nD → PrngReg)

/-- The converted weight `Whh` the region finds is the argument itself. -/
theorem V_Whh (c : Dev nD) : (V m c main_v1 : S3072x1024.Idx → EReal) = m ((c : Thread nD τ).loc main_arg6) := by
  dsimp only [Gen.V, Gen.hostOps0]
  after_results
  rfl

/-- The converted weight `Wdh` the region finds is the argument itself. -/
theorem V_Wdh (c : Dev nD) : (V m c main_v2 : S1024x512.Idx → EReal) = m ((c : Thread nD τ).loc main_arg8) := by
  dsimp only [Gen.V, Gen.hostOps0]
  after_results
  rfl

/-- The converted weight `Wdx` the region finds is the argument itself. -/
theorem V_Wdx (c : Dev nD) : (V m c main_v3 : S512x512.Idx → EReal) = m ((c : Thread nD τ).loc main_arg10) := by
  dsimp only [Gen.V, Gen.hostOps0]
  after_results
  rfl

/-- The bias `bhh` as the one-row matrix the region finds. -/
theorem V_bhh (c : Dev nD) : (V m c main_v5 : S1x3072.Idx → EReal)
    = shapeCast S1x3072 (m ((c : Thread nD τ).loc main_arg7) : S3072.Idx → EReal) shapeCasts_S3072_S1x3072 := by
  dsimp only [Gen.V, Gen.hostOps0]
  after_results
  rfl

/-- The bias `bdh` as the one-row matrix the region finds. -/
theorem V_bdh (c : Dev nD) : (V m c main_v6 : S1x1024.Idx → EReal)
    = shapeCast S1x1024 (m ((c : Thread nD τ).loc main_arg9) : S1024.Idx → EReal) shapeCasts_S1024_S1x1024 := by
  dsimp only [Gen.V, Gen.hostOps0]
  after_results
  rfl

/-- The bias `bdx` as the one-row matrix the region finds. -/
theorem V_bdx (c : Dev nD) : (V m c main_v7 : S1x512.Idx → EReal)
    = shapeCast S1x512 (m ((c : Thread nD τ).loc main_arg11) : S512.Idx → EReal) shapeCasts_S512_S1x512 := by
  dsimp only [Gen.V, Gen.hostOps0]
  after_results
  rfl

/-- Row `p` of the `h` block at point `t` is row `256 t + p` of `h`. -/
theorem blk_h (c : Dev nD) (t : Fin cfg0.N) (p : Fin 256) (k : Fin 1024) (b : Fin 16384) (hb : b.val = 256 * t.val + p.val) :
    (iblk m c 1 t : Vec Ideal S256x1024 .f32) (ix2 p k)
      = (m ((c : Thread nD τ).loc main_arg1) : S16384x1024.Idx → EReal) (ix2 b k) := by
  have hi := (idx_facts t).2.1
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 256 + 1 * p.val = b.val; rw [hi.1, hb]; omega
  | ⟨1, _⟩ => show win0_1.index t (1 : Fin 2) * 1024 + 1 * k.val = k.val; rw [hi.2]; omega

/-- Row `p` of the `mask` block at point `t` is row `256 t + p` of `mask`. -/
theorem blk_mask (c : Dev nD) (t : Fin cfg0.N) (p : Fin 256) (k : Fin 512) (b : Fin 16384) (hb : b.val = 256 * t.val + p.val) :
    (iblk m c 2 t : Vec Ideal S256x512 .f32) (ix2 p k)
      = (m ((c : Thread nD τ).loc main_arg2) : S16384x512.Idx → EReal) (ix2 b k) := by
  have hi := (idx_facts t).2.2.1
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 256 + 1 * p.val = b.val; rw [hi.1, hb]; omega
  | ⟨1, _⟩ => show win0_2.index t (1 : Fin 2) * 512 + 1 * k.val = k.val; rw [hi.2]; omega

/-- Row `p` of the `delta` block at point `t` is row `256 t + p` of `delta`. -/
theorem blk_delta (c : Dev nD) (t : Fin cfg0.N) (p : Fin 256) (k : Fin 512) (b : Fin 16384) (hb : b.val = 256 * t.val + p.val) :
    (iblk m c 3 t : Vec Ideal S256x512 .f32) (ix2 p k)
      = (m ((c : Thread nD τ).loc main_arg3) : S16384x512.Idx → EReal) (ix2 b k) := by
  have hi := (idx_facts t).2.2.2.1
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 256 + 1 * p.val = b.val; rw [hi.1, hb]; omega
  | ⟨1, _⟩ => show win0_3.index t (1 : Fin 2) * 512 + 1 * k.val = k.val; rw [hi.2]; omega

/-- The resident `Whh` block is the whole weight. -/
theorem blk_Whh (c : Dev nD) (t : Fin cfg0.N) (n : Fin 3072) (k : Fin 1024) :
    (iblk m c 6 t : Vec Ideal S3072x1024 .bf16) (ix2 n k)
      = (m ((c : Thread nD τ).loc main_arg6) : S3072x1024.Idx → EReal) (ix2 n k) := by
  have hi := (idx_facts t).2.2.2.2.2.2.1
  unfold iblk
  rw [View.read_apply]
  show (V m c main_v1 : S3072x1024.Idx → EReal) _ = m (c.tc.loc main_arg6) _
  rw [V_Whh]
  congr 1
  funext a
  apply Fin.ext
  match a with
  | ⟨0, _⟩ => show win0_6.index t (0 : Fin 2) * 3072 + 1 * n.val = n.val; rw [hi.1]; omega
  | ⟨1, _⟩ => show win0_6.index t (1 : Fin 2) * 1024 + 1 * k.val = k.val; rw [hi.2]; omega

/-- The resident `bhh` block is the bias laid as one row. -/
theorem blk_bhh (c : Dev nD) (t : Fin cfg0.N) (n : Fin 3072) :
    (iblk m c 7 t : Vec Ideal S1x3072 .f32) (ix2 (0 : Fin 1) n)
      = (m ((c : Thread nD τ).loc main_arg7) : S3072.Idx → EReal) (ix1 n) := by
  have hi := (idx_facts t).2.2.2.2.2.2.2.1
  unfold iblk
  rw [View.read_apply]
  show (V m c main_v5 : S1x3072.Idx → EReal) _ = m (c.tc.loc main_arg7) _
  rw [V_bhh]
  refine shapeCast_apply _ shapeCasts_S3072_S1x3072 _ (ix1 n) ?_
  rw [Shape.rowMajor_val_two, Shape.rowMajor_val_one]
  show n.val = (win0_7.index t (0 : Fin 2) * 1 + 1 * 0) * 3072 + (win0_7.index t (1 : Fin 2) * 3072 + 1 * n.val)
  rw [hi.1, hi.2]; omega

/-- The resident `Wdh` block is the whole weight. -/
theorem blk_Wdh (c : Dev nD) (t : Fin cfg0.N) (n : Fin 1024) (k : Fin 512) :
    (iblk m c 8 t : Vec Ideal S1024x512 .bf16) (ix2 n k)
      = (m ((c : Thread nD τ).loc main_arg8) : S1024x512.Idx → EReal) (ix2 n k) := by
  have hi := (idx_facts t).2.2.2.2.2.2.2.2.1
  unfold iblk
  rw [View.read_apply]
  show (V m c main_v2 : S1024x512.Idx → EReal) _ = m (c.tc.loc main_arg8) _
  rw [V_Wdh]
  congr 1
  funext a
  apply Fin.ext
  match a with
  | ⟨0, _⟩ => show win0_8.index t (0 : Fin 2) * 1024 + 1 * n.val = n.val; rw [hi.1]; omega
  | ⟨1, _⟩ => show win0_8.index t (1 : Fin 2) * 512 + 1 * k.val = k.val; rw [hi.2]; omega

/-- The resident `bdh` block is the bias laid as one row. -/
theorem blk_bdh (c : Dev nD) (t : Fin cfg0.N) (n : Fin 1024) :
    (iblk m c 9 t : Vec Ideal S1x1024 .f32) (ix2 (0 : Fin 1) n)
      = (m ((c : Thread nD τ).loc main_arg9) : S1024.Idx → EReal) (ix1 n) := by
  have hi := (idx_facts t).2.2.2.2.2.2.2.2.2.1
  unfold iblk
  rw [View.read_apply]
  show (V m c main_v6 : S1x1024.Idx → EReal) _ = m (c.tc.loc main_arg9) _
  rw [V_bdh]
  refine shapeCast_apply _ shapeCasts_S1024_S1x1024 _ (ix1 n) ?_
  rw [Shape.rowMajor_val_two, Shape.rowMajor_val_one]
  show n.val = (win0_9.index t (0 : Fin 2) * 1 + 1 * 0) * 1024 + (win0_9.index t (1 : Fin 2) * 1024 + 1 * n.val)
  rw [hi.1, hi.2]; omega

/-- The resident `Wdx` block is the whole weight. -/
theorem blk_Wdx (c : Dev nD) (t : Fin cfg0.N) (n : Fin 512) (k : Fin 512) :
    (iblk m c 10 t : Vec Ideal S512x512 .bf16) (ix2 n k)
      = (m ((c : Thread nD τ).loc main_arg10) : S512x512.Idx → EReal) (ix2 n k) := by
  have hi := (idx_facts t).2.2.2.2.2.2.2.2.2.2.1
  unfold iblk
  rw [View.read_apply]
  show (V m c main_v3 : S512x512.Idx → EReal) _ = m (c.tc.loc main_arg10) _
  rw [V_Wdx]
  congr 1
  funext a
  apply Fin.ext
  match a with
  | ⟨0, _⟩ => show win0_10.index t (0 : Fin 2) * 512 + 1 * n.val = n.val; rw [hi.1]; omega
  | ⟨1, _⟩ => show win0_10.index t (1 : Fin 2) * 512 + 1 * k.val = k.val; rw [hi.2]; omega

/-- The resident `bdx` block is the bias laid as one row. -/
theorem blk_bdx (c : Dev nD) (t : Fin cfg0.N) (n : Fin 512) :
    (iblk m c 11 t : Vec Ideal S1x512 .f32) (ix2 (0 : Fin 1) n)
      = (m ((c : Thread nD τ).loc main_arg11) : S512.Idx → EReal) (ix1 n) := by
  have hi := (idx_facts t).2.2.2.2.2.2.2.2.2.2.2.1
  unfold iblk
  rw [View.read_apply]
  show (V m c main_v7 : S1x512.Idx → EReal) _ = m (c.tc.loc main_arg11) _
  rw [V_bdx]
  refine shapeCast_apply _ shapeCasts_S512_S1x512 _ (ix1 n) ?_
  rw [Shape.rowMajor_val_two, Shape.rowMajor_val_one]
  show n.val = (win0_11.index t (0 : Fin 2) * 1 + 1 * 0) * 512 + (win0_11.index t (1 : Fin 2) * 512 + 1 * n.val)
  rw [hi.1, hi.2]; omega

end Cert.KernelIdeal.Whole

end
-- ==== Proof.KernelArray.lean ====
/-
  From blocks to the array. What grid point `t` writes back is the body's result on rows `256 t … 256 t + 255` of the
  batch arrays, and the body's result at row `p` is the GRU-D cell of that row (`Cert.KernelIdeal.Cell.body_entry`): so
  point `t` writes block `t` of the whole-batch array `Cert.GruD.G` of the arguments. The 64 blocks of 256 rows cover the
  16384 rows (row `r` lies in block `r / 256`), hence the result array ends equal to `G`.
-/
import proofs.«179894_j34333968564821_1_alg».proof.Proof.Gen.KernelIdeal.Value
import proofs.«179894_j34333968564821_1_alg».proof.Proof.KernelCell
import proofs.«179894_j34333968564821_1_alg».proof.Proof.KernelArrayBlocks
import proofs.«179894_j34333968564821_1_alg».proof.Proof.KernelArraySiblings
import Idealize.ShloMosaic.Lib.Pipeline.Value

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.GruD
open Idealize.ShloMosaic.Pipeline (Dat)

variable (m : (ℓ : Loc nD τ sig) → Buf (Elt Ideal) ℓ) (ρ : Dev nD → PrngReg)

/-- The whole-batch result as a function of the twelve argument arrays. -/
def resultOf (x : S16384x512.Idx → EReal) (h : S16384x1024.Idx → EReal) (mask delta : S16384x512.Idx → EReal)
    (Wih : S3072x512.Idx → EReal) (bih : S3072.Idx → EReal) (Whh : S3072x1024.Idx → EReal) (bhh : S3072.Idx → EReal)
    (Wdh : S1024x512.Idx → EReal) (bdh : S1024.Idx → EReal) (Wdx : S512x512.Idx → EReal) (bdx : S512.Idx → EReal) :
    S16384x1024.Idx → EReal :=
  G x h mask delta (fun n k => Wih (ix2 n k)) (fun n => bih (ix1 n)) (fun n k => Whh (ix2 n k)) (fun n => bhh (ix1 n))
    (fun n k => Wdh (ix2 n k)) (fun n => bdh (ix1 n)) (fun n k => Wdx (ix2 n k)) (fun n => bdx (ix1 n))

/-- The array the kernel's result buffer ends holding, on core `c`. -/
abbrev result (c : Dev nD) : Buf (Elt Ideal) ((c : Thread nD τ).loc main_v8) :=
  resultOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

theorem hz : (![0, 0] : Fin 2 → Nat) = fun _ => 0 := funext fun a => by fin_cases a <;> rfl

/-- ONE ENTRY OF ONE BLOCK. If the twelve blocks `x0 … x11` are rows `256 t …` of the batch arrays and the whole weight
    and bias arrays, then the body's result at entry `y` of the block is `G` at the entry `i` of the array that lies
    `256 t` rows further down. -/
theorem block_entry (X H MASK DELTA : _) (Wih : Fin 3072 → Fin 512 → EReal) (bih : Fin 3072 → EReal)
    (Whh : Fin 3072 → Fin 1024 → EReal) (bhh : Fin 3072 → EReal) (Wdh : Fin 1024 → Fin 512 → EReal) (bdh : Fin 1024 → EReal)
    (Wdx : Fin 512 → Fin 512 → EReal) (bdx : Fin 512 → EReal)
    (x0 : Vec Ideal S256x512 .f32) (x1 : Vec Ideal S256x1024 .f32) (x2 x3 : Vec Ideal S256x512 .f32)
    (x4 : Vec Ideal S3072x512 .bf16) (x5 : Vec Ideal S1x3072 .f32) (x6 : Vec Ideal S3072x1024 .bf16)
    (x7 : Vec Ideal S1x3072 .f32) (x8 : Vec Ideal S1024x512 .bf16) (x9 : Vec Ideal S1x1024 .f32)
    (x10 : Vec Ideal S512x512 .bf16) (x11 : Vec Ideal S1x512 .f32) (t : Nat)
    (h0 : ∀ (p : Fin 256) (k : Fin 512) (b : Fin 16384), b.val = 256 * t + p.val → x0 (ix2 p k) = X (ix2 b k))
    (h1 : ∀ (p : Fin 256) (k : Fin 1024) (b : Fin 16384), b.val = 256 * t + p.val → x1 (ix2 p k) = H (ix2 b k))
    (h2 : ∀ (p : Fin 256) (k : Fin 512) (b : Fin 16384), b.val = 256 * t + p.val → x2 (ix2 p k) = MASK (ix2 b k))
    (h3 : ∀ (p : Fin 256) (k : Fin 512) (b : Fin 16384), b.val = 256 * t + p.val → x3 (ix2 p k) = DELTA (ix2 b k))
    (h4 : ∀ n k, x4 (ix2 n k) = Wih n k) (h5 : ∀ n, x5 (ix2 (0 : Fin 1) n) = bih n)
    (h6 : ∀ n k, x6 (ix2 n k) = Whh n k) (h7 : ∀ n, x7 (ix2 (0 : Fin 1) n) = bhh n)
    (h8 : ∀ n k, x8 (ix2 n k) = Wdh n k) (h9 : ∀ n, x9 (ix2 (0 : Fin 1) n) = bdh n)
    (h10 : ∀ n k, x10 (ix2 n k) = Wdx n k) (h11 : ∀ n, x11 (ix2 (0 : Fin 1) n) = bdx n)
    (y : S256x1024.Idx) (i : S16384x1024.Idx) (hi0 : (i 0).val = 256 * t + (y 0).val) (hi1 : (i 1).val = (y 1).val) :
    k0_pay1 (F := Ideal) x0 (k0_pay2 x1 x3 x8 x9) (k0_pay3 x0 x10 x11) (k0_pay4 x0 x2) (k0_pay5 x2) x4 x5 x6 x7 y
      = G X H MASK DELTA Wih bih Whh bhh Wdh bdh Wdx bdx i := by
  obtain ⟨p, j, rfl⟩ : ∃ (p : Fin 256) (j : Fin 1024), y = ix2 p j := ⟨y 0, y 1, eq_ix2 y⟩
  obtain ⟨b, j', rfl⟩ : ∃ (b : Fin 16384) (j' : Fin 1024), i = ix2 b j' := ⟨i 0, i 1, eq_ix2 i⟩
  obtain rfl : j' = j := Fin.ext hi1
  rw [Cell.body_entry, G_ix2]
  have e0 : Cell.row512 x0 p = fun k => X (ix2 b k) := funext fun k => h0 p k b hi0
  have e1 : Cell.row1024 x1 p = fun k => H (ix2 b k) := funext fun k => h1 p k b hi0
  have e2 : Cell.row512 x2 p = fun k => MASK (ix2 b k) := funext fun k => h2 p k b hi0
  have e3 : Cell.row512 x3 p = fun k => DELTA (ix2 b k) := funext fun k => h3 p k b hi0
  have e4 : (fun n k => x4 (ix2 n k)) = Wih := funext fun n => funext fun k => h4 n k
  have e5 : (fun n => x5 (ix2 (0 : Fin 1) n)) = bih := funext h5
  have e6 : (fun n k => x6 (ix2 n k)) = Whh := funext fun n => funext fun k => h6 n k
  have e7 : (fun n => x7 (ix2 (0 : Fin 1) n)) = bhh := funext h7
  have e8 : (fun n k => x8 (ix2 n k)) = Wdh := funext fun n => funext fun k => h8 n k
  have e9 : (fun n => x9 (ix2 (0 : Fin 1) n)) = bdh := funext h9
  have e10 : (fun n k => x10 (ix2 n k)) = Wdx := funext fun n => funext fun k => h10 n k
  have e11 : (fun n => x11 (ix2 (0 : Fin 1) n)) = bdx := funext h11
  rw [e0, e1, e2, e3, e4, e5, e6, e7, e8, e9, e10, e11]

/-- WHAT POINT `t` WRITES BACK is block `t` of the result array. -/
theorem flushed_eq (c : Dev nD) (t : Fin cfg0.N) :
    (dats m 0 c).flushed 12 t = ((cfg0.win 12).blk t).view.read (Elt Ideal) (result m c) := by
  have hi := (idx_facts t).2.2.2.2.2.2.2.2.2.2.2.2
  rw [Value.flushed12]
  unfold out0_12
  rw [View.canon_unit_zero hz]
  simp only [View.ld_unit_zero (S := S256x512) hz, View.ld_unit_zero (S := S256x1024) hz,
    View.ld_unit_zero (S := S3072x512) hz, View.ld_unit_zero (S := S1x3072) hz, View.ld_unit_zero (S := S3072x1024) hz,
    View.ld_unit_zero (S := S1024x512) hz, View.ld_unit_zero (S := S1x1024) hz, View.ld_unit_zero (S := S512x512) hz,
    View.ld_unit_zero (S := S1x512) hz]
  funext y
  show k0_pay1 (F := Ideal) (iblk m c 0 t) (k0_pay2 (iblk m c 1 t) (iblk m c 3 t) (iblk m c 8 t) (iblk m c 9 t))
        (k0_pay3 (iblk m c 0 t) (iblk m c 10 t) (iblk m c 11 t)) (k0_pay4 (iblk m c 0 t) (iblk m c 2 t))
        (k0_pay5 (iblk m c 2 t)) (iblk m c 4 t) (iblk m c 5 t) (iblk m c 6 t) (iblk m c 7 t)
        ((cfg0.win 12).xinj (grid0.coords t) y)
      = G (m ((c : Thread nD τ).loc main_arg0) : S16384x512.Idx → EReal) (m ((c : Thread nD τ).loc main_arg1) : S16384x1024.Idx → EReal)
          (m ((c : Thread nD τ).loc main_arg2) : S16384x512.Idx → EReal) (m ((c : Thread nD τ).loc main_arg3) : S16384x512.Idx → EReal)
          (fun n k => (m ((c : Thread nD τ).loc main_arg4) : S3072x512.Idx → EReal) (ix2 n k)) (fun n => (m ((c : Thread nD τ).loc main_arg5) : S3072.Idx → EReal) (ix1 n))
          (fun n k => (m ((c : Thread nD τ).loc main_arg6) : S3072x1024.Idx → EReal) (ix2 n k)) (fun n => (m ((c : Thread nD τ).loc main_arg7) : S3072.Idx → EReal) (ix1 n))
          (fun n k => (m ((c : Thread nD τ).loc main_arg8) : S1024x512.Idx → EReal) (ix2 n k)) (fun n => (m ((c : Thread nD τ).loc main_arg9) : S1024.Idx → EReal) (ix1 n))
          (fun n k => (m ((c : Thread nD τ).loc main_arg10) : S512x512.Idx → EReal) (ix2 n k)) (fun n => (m ((c : Thread nD τ).loc main_arg11) : S512.Idx → EReal) (ix1 n))
          (((cfg0.win 12).blk t).view.emb y)
  exact block_entry (m ((c : Thread nD τ).loc main_arg0) : S16384x512.Idx → EReal) (m ((c : Thread nD τ).loc main_arg1) : S16384x1024.Idx → EReal)
    (m ((c : Thread nD τ).loc main_arg2) : S16384x512.Idx → EReal) (m ((c : Thread nD τ).loc main_arg3) : S16384x512.Idx → EReal)
    (fun n k => (m ((c : Thread nD τ).loc main_arg4) : S3072x512.Idx → EReal) (ix2 n k)) (fun n => (m ((c : Thread nD τ).loc main_arg5) : S3072.Idx → EReal) (ix1 n))
    (fun n k => (m ((c : Thread nD τ).loc main_arg6) : S3072x1024.Idx → EReal) (ix2 n k)) (fun n => (m ((c : Thread nD τ).loc main_arg7) : S3072.Idx → EReal) (ix1 n))
    (fun n k => (m ((c : Thread nD τ).loc main_arg8) : S1024x512.Idx → EReal) (ix2 n k)) (fun n => (m ((c : Thread nD τ).loc main_arg9) : S1024.Idx → EReal) (ix1 n))
    (fun n k => (m ((c : Thread nD τ).loc main_arg10) : S512x512.Idx → EReal) (ix2 n k)) (fun n => (m ((c : Thread nD τ).loc main_arg11) : S512.Idx → EReal) (ix1 n))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) t.val
    (fun p k b hb => blk_x m c t p k b hb) (fun p k b hb => blk_h m c t p k b hb)
    (fun p k b hb => blk_mask m c t p k b hb) (fun p k b hb => blk_delta m c t p k b hb)
    (fun n k => blk_Wih m c t n k) (fun n => blk_bih m c t n) (fun n k => blk_Whh m c t n k) (fun n => blk_bhh m c t n)
    (fun n k => blk_Wdh m c t n k) (fun n => blk_bdh m c t n) (fun n k => blk_Wdx m c t n k) (fun n => blk_bdx m c t n)
    ((cfg0.win 12).xinj (grid0.coords t) y) (((cfg0.win 12).blk t).view.emb y)
    (by show win0_12.index t (0 : Fin 2) * 256 + 1 * (y 0).val = 256 * t.val + (y 0).val; rw [hi.1]; omega)
    (by show win0_12.index t (1 : Fin 2) * 1024 + 1 * (y 1).val = (y 1).val; rw [hi.2]; omega)

/-- An index of the result array lies in point `t`'s block iff each coordinate lies in the block's range on its axis. -/
theorem mem_blk (t : Fin cfg0.N) (i : S16384x1024.Idx) :
    i ∈ ((cfg0.win 12).blk t).view.set ↔ ∀ a : Fin 2, win0_12.index t a * S256x1024.size a ≤ (i a).val
      ∧ (i a).val < win0_12.index t a * S256x1024.size a + S256x1024.size a := by
  show i ∈ ((View.whole main_v8).slice (win0_12.rect t)).set ↔ _
  rw [View.set_slice_whole, Rect.mem_set_unit]
  exact Iff.rfl

/-- THE COVER: row `r` of the result lies in the block of point `r / 256`. -/
theorem cover (i : S16384x1024.Idx) :
    ∃ t : Fin cfg0.N, (cfg0.win 12).flush t = true ∧ i ∈ ((cfg0.win 12).blk t).view.set := by
  have hN : cfg0.N = 64 := N_0
  have h0 : (i 0).val < 16384 := (i 0).isLt
  have h1 : (i 1).val < 1024 := (i 1).isLt
  have ht : (i 0).val / 256 < cfg0.N := by rw [hN]; omega
  have hi := (idx_facts ⟨(i 0).val / 256, ht⟩).2.2.2.2.2.2.2.2.2.2.2.2
  refine ⟨⟨(i 0).val / 256, ht⟩, flush0_12 _, ?_⟩
  rw [mem_blk]
  intro a
  match a with
  | ⟨0, _⟩ =>
    show win0_12.index ⟨(i 0).val / 256, ht⟩ (0 : Fin 2) * 256 ≤ (i 0).val
      ∧ (i 0).val < win0_12.index ⟨(i 0).val / 256, ht⟩ (0 : Fin 2) * 256 + 256
    rw [hi.1]
    show (i 0).val / 256 * 256 ≤ (i 0).val ∧ (i 0).val < (i 0).val / 256 * 256 + 256
    omega
  | ⟨1, _⟩ =>
    show win0_12.index ⟨(i 0).val / 256, ht⟩ (1 : Fin 2) * 1024 ≤ (i 1).val
      ∧ (i 1).val < win0_12.index ⟨(i 0).val / 256, ht⟩ (1 : Fin 2) * 1024 + 1024
    rw [hi.2]
    omega

/-- THE RESULT ARRAY after the run is `G` of the arguments. -/
theorem final (c : Dev nD) : (dats m 0 c).arrAt 12 cfg0.N = result m c :=
  (dats m 0 c).arrAt_eq_of_cover 12 (result m c) (fun t _ => flushed_eq m c t) cover

/-- The run, read: the result buffer ends at `G` of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.Whole

end
-- ==== Proof.RefCell.lean ====
/-
  What the reference computes, entry by entry: each stage of its host program at batch row `b` is the corresponding
  piece of the GRU-D cell of that row (`Cert.GruD`). The reference negates with `-`, spells the logistic function as
  `1 / (1 + exp (-x))`, which is the logistic function on the extended reals by definition, multiplies by transposed
  weights through an explicit transpose, and cuts the stacked gate vector into thirds by column windows.
-/
import proofs.«179894_j34333968564821_1_alg».proof.Proof.Gen.ReferenceIdeal.Read
import proofs.«179894_j34333968564821_1_alg».proof.Proof.Spec
import Idealize.ShloMosaic.Lib.IdealHost

noncomputable section

open scoped BigOperators

namespace Cert.ReferenceIdeal.Cell

open Cert.ReferenceIdeal Cert.ReferenceIdeal.Gen Cert.ReferenceIdeal.Read Idealize.ShloMosaic Idealize.ShloMosaic.ValueIdx Cert.GruD

/-- A rank-2 index is the pair of its coordinates. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index is its coordinate. -/
theorem idx1_eq {n : Nat} (f : (⟨1, ![n]⟩ : Shape).Idx) (a : Fin n) (h0 : (f 0).val = a.val) : f = ix1 a :=
  funext fun d => Fin.ext (by
    match d with
    | ⟨0, _⟩ => exact h0)

/-- Row `b` of an array with 512 columns. -/
abbrev row512 (v : S16384x512.Idx → EReal) (b : Fin 16384) : Fin 512 → EReal := fun k => v (ix2 b k)
/-- Row `b` of an array with 1024 columns. -/
abbrev row1024 (v : S16384x1024.Idx → EReal) (b : Fin 16384) : Fin 1024 → EReal := fun k => v (ix2 b k)

/-- The decayed hidden state, entry `(b, j)`. -/
theorem hdec_entry (x1 : (⟨S16384x1024, .f32⟩ : BufTy).Contents (Elt Ideal)) (x3 : (⟨S16384x512, .f32⟩ : BufTy).Contents (Elt Ideal))
    (x8 : (⟨S1024x512, .f32⟩ : BufTy).Contents (Elt Ideal)) (x9 : (⟨S1024, .f32⟩ : BufTy).Contents (Elt Ideal))
    (b : Fin 16384) (j : Fin 1024) :
    val_main_v8 (F := Ideal) x1 x3 x8 x9 (ix2 b j)
      = hdec (row512 x3 b) (row1024 x1 b) (fun n k => x8 (ix2 n k)) (fun n => x9 (ix1 n)) j := by
  unfold hdec
  simp only [val_main_v8_apply, val_main_v7_apply, val_main_v6_apply, val_main_v5_apply, val_main_v4_apply,
    val_main_v3_apply, val_main_v2_apply, val_main_v1_apply, val_main_v0_apply, val_main_call0_v0_apply,
    val_main_call0_cst_apply,
    Ideal.mulf_def, Ideal.hostUnary_exp_def, Ideal.hostNegf_def, Ideal.negf_def, Ideal.maximumf_def, Ideal.addf_def,
    Ideal.ofBits_def, Ideal.ofBits_zero_f32,
    fun k => idx2_eq (lidx_main_v1 (ix2 b j) k) b k rfl rfl,
    fun k => idx2_eq (idx_main_v0 (ridx_main_v1 (ix2 b j) k)) j k rfl rfl,
    idx1_eq (idx_main_v2 (idx_main_v3 (ix2 b j))) j rfl]

/-- The blended input, entry `(b, i)`. -/
theorem xin_entry (x0 x2 : (⟨S16384x512, .f32⟩ : BufTy).Contents (Elt Ideal)) (x10 : (⟨S512x512, .f32⟩ : BufTy).Contents (Elt Ideal)) (x11 : (⟨S512, .f32⟩ : BufTy).Contents (Elt Ideal))
    (b : Fin 16384) (i : Fin 512) :
    val_main_v22 (F := Ideal) x0 x2 x10 x11 (ix2 b i)
      = xin (row512 x0 b) (row512 x2 b) (fun n k => x10 (ix2 n k)) (fun n => x11 (ix1 n)) i := by
  unfold xin
  simp only [val_main_v22_apply, val_main_v21_apply, val_main_v20_apply, val_main_v19_apply, val_main_v18_apply,
    val_main_cst_apply, val_main_v17_apply, val_main_v16_apply, val_main_v15_apply, val_main_v14_apply,
    val_main_call1_v0_apply, val_main_call1_cst_apply, val_main_v13_apply, val_main_v12_apply, val_main_v11_apply,
    val_main_v10_apply, val_main_v9_apply,
    Ideal.mulf_def, Ideal.subf_def, Ideal.hostUnary_exp_def, Ideal.hostNegf_def, Ideal.negf_def, Ideal.maximumf_def,
    Ideal.addf_def, Ideal.ofBits_def, Ideal.ofBits_zero_f32, Ideal.ofBits_one_f32,
    fun k => idx2_eq (lidx_main_v10 (ix2 b i) k) b k rfl rfl,
    fun k => idx2_eq (idx_main_v9 (ridx_main_v10 (ix2 b i) k)) i k rfl rfl,
    idx1_eq (idx_main_v11 (idx_main_v12 (ix2 b i))) i rfl]

/-- The input-side gate pre-activation, entry `(b, n)`, over the blended input's row. -/
theorem gi_entry (x0 x2 : (⟨S16384x512, .f32⟩ : BufTy).Contents (Elt Ideal)) (x4 : (⟨S3072x512, .f32⟩ : BufTy).Contents (Elt Ideal)) (x5 : (⟨S3072, .f32⟩ : BufTy).Contents (Elt Ideal))
    (x10 : (⟨S512x512, .f32⟩ : BufTy).Contents (Elt Ideal)) (x11 : (⟨S512, .f32⟩ : BufTy).Contents (Elt Ideal)) (b : Fin 16384) (n : Fin 3072) :
    val_main_v27 (F := Ideal) x0 x2 x4 x5 x10 x11 (ix2 b n)
      = gi (fun i => val_main_v22 (F := Ideal) x0 x2 x10 x11 (ix2 b i)) (fun n k => x4 (ix2 n k)) (fun n => x5 (ix1 n)) n := by
  unfold gi
  simp only [val_main_v27_apply, val_main_v26_apply, val_main_v25_apply, val_main_v24_apply, val_main_v23_apply,
    Ideal.addf_def,
    fun k => idx2_eq (lidx_main_v24 (ix2 b n) k) b k rfl rfl,
    fun k => idx2_eq (idx_main_v23 (ridx_main_v24 (ix2 b n) k)) n k rfl rfl,
    idx1_eq (idx_main_v25 (idx_main_v26 (ix2 b n))) n rfl]

/-- The hidden-side gate pre-activation, entry `(b, n)`, over the decayed hidden row. -/
theorem gh_entry (x1 : (⟨S16384x1024, .f32⟩ : BufTy).Contents (Elt Ideal)) (x3 : (⟨S16384x512, .f32⟩ : BufTy).Contents (Elt Ideal)) (x6 : (⟨S3072x1024, .f32⟩ : BufTy).Contents (Elt Ideal)) (x7 : (⟨S3072, .f32⟩ : BufTy).Contents (Elt Ideal))
    (x8 : (⟨S1024x512, .f32⟩ : BufTy).Contents (Elt Ideal)) (x9 : (⟨S1024, .f32⟩ : BufTy).Contents (Elt Ideal)) (b : Fin 16384) (n : Fin 3072) :
    val_main_v32 (F := Ideal) x1 x3 x6 x7 x8 x9 (ix2 b n)
      = gh (fun k => val_main_v8 (F := Ideal) x1 x3 x8 x9 (ix2 b k)) (fun n k => x6 (ix2 n k)) (fun n => x7 (ix1 n)) n := by
  unfold gh
  simp only [val_main_v32_apply, val_main_v31_apply, val_main_v30_apply, val_main_v29_apply, val_main_v28_apply,
    Ideal.addf_def,
    fun k => idx2_eq (lidx_main_v29 (ix2 b n) k) b k rfl rfl,
    fun k => idx2_eq (idx_main_v28 (ridx_main_v29 (ix2 b n) k)) n k rfl rfl,
    idx1_eq (idx_main_v30 (idx_main_v31 (ix2 b n))) n rfl]

/-- The result, entry `(b, j)`, from the two stacked pre-activations and the decayed hidden state: the GRU update,
    the logistic function written out as `1 / (1 + exp (-x))`. -/
theorem update_entry (x0 : (⟨S16384x512, .f32⟩ : BufTy).Contents (Elt Ideal)) (x1 : (⟨S16384x1024, .f32⟩ : BufTy).Contents (Elt Ideal)) (x2 x3 : (⟨S16384x512, .f32⟩ : BufTy).Contents (Elt Ideal))
    (x4 : (⟨S3072x512, .f32⟩ : BufTy).Contents (Elt Ideal)) (x5 : (⟨S3072, .f32⟩ : BufTy).Contents (Elt Ideal)) (x6 : (⟨S3072x1024, .f32⟩ : BufTy).Contents (Elt Ideal)) (x7 : (⟨S3072, .f32⟩ : BufTy).Contents (Elt Ideal))
    (x8 : (⟨S1024x512, .f32⟩ : BufTy).Contents (Elt Ideal)) (x9 : (⟨S1024, .f32⟩ : BufTy).Contents (Elt Ideal)) (x10 : (⟨S512x512, .f32⟩ : BufTy).Contents (Elt Ideal)) (x11 : (⟨S512, .f32⟩ : BufTy).Contents (Elt Ideal))
    (b : Fin 16384) (j : Fin 1024) :
    val_main_v60 (F := Ideal) x0 x1 x2 x3 x4 x5 x6 x7 x8 x9 x10 x11 (ix2 b j)
      = mix (fun n => val_main_v27 (F := Ideal) x0 x2 x4 x5 x10 x11 (ix2 b n))
            (fun n => val_main_v32 (F := Ideal) x1 x3 x6 x7 x8 x9 (ix2 b n))
            (fun k => val_main_v8 (F := Ideal) x1 x3 x8 x9 (ix2 b k)) j := by
  unfold mix
  simp only [val_main_v60_apply, val_main_v59_apply, val_main_v58_apply, val_main_v57_apply, val_main_v56_apply,
    val_main_cst_4_apply, val_main_v55_apply, val_main_v54_apply, val_main_v53_apply, val_main_v52_apply,
    val_main_v51_apply, val_main_cst_3_apply, val_main_v50_apply, val_main_v49_apply, val_main_cst_2_apply,
    val_main_v48_apply, val_main_v47_apply, val_main_v46_apply, val_main_v45_apply, val_main_v44_apply,
    val_main_cst_1_apply, val_main_v43_apply, val_main_v42_apply, val_main_cst_0_apply, val_main_v41_apply,
    val_main_v40_apply, val_main_v39_apply, val_main_v38_apply, val_main_v37_apply, val_main_v36_apply,
    val_main_v35_apply, val_main_v34_apply, val_main_v33_apply,
    Ideal.mulf_def, Ideal.subf_def, Ideal.addf_def, Ideal.hostUnary_exp_def, Ideal.hostUnary_tanh_def, Ideal.hostNegf_def,
    Ideal.negf_def, Ideal.hostDivf_def, Ideal.ofBits_def, Ideal.ofBits_one_f32, Ideal.logistic,
    idx2_eq (idx_main_v33 (ix2 b j)) b (lo j) rfl rfl, idx2_eq (idx_main_v34 (ix2 b j)) b (mid j) rfl rfl,
    idx2_eq (idx_main_v35 (ix2 b j)) b (hi j) rfl rfl, idx2_eq (idx_main_v36 (ix2 b j)) b (lo j) rfl rfl,
    idx2_eq (idx_main_v37 (ix2 b j)) b (mid j) rfl rfl, idx2_eq (idx_main_v38 (ix2 b j)) b (hi j) rfl rfl]

/-- THE REFERENCE'S RESULT, entry `(b, j)`: the GRU-D cell of row `b` of `x`, `h`, `mask`, `delta`. -/
theorem result_entry (x0 : (⟨S16384x512, .f32⟩ : BufTy).Contents (Elt Ideal)) (x1 : (⟨S16384x1024, .f32⟩ : BufTy).Contents (Elt Ideal)) (x2 x3 : (⟨S16384x512, .f32⟩ : BufTy).Contents (Elt Ideal))
    (x4 : (⟨S3072x512, .f32⟩ : BufTy).Contents (Elt Ideal)) (x5 : (⟨S3072, .f32⟩ : BufTy).Contents (Elt Ideal)) (x6 : (⟨S3072x1024, .f32⟩ : BufTy).Contents (Elt Ideal)) (x7 : (⟨S3072, .f32⟩ : BufTy).Contents (Elt Ideal))
    (x8 : (⟨S1024x512, .f32⟩ : BufTy).Contents (Elt Ideal)) (x9 : (⟨S1024, .f32⟩ : BufTy).Contents (Elt Ideal)) (x10 : (⟨S512x512, .f32⟩ : BufTy).Contents (Elt Ideal)) (x11 : (⟨S512, .f32⟩ : BufTy).Contents (Elt Ideal))
    (b : Fin 16384) (j : Fin 1024) :
    val_main_v60 (F := Ideal) x0 x1 x2 x3 x4 x5 x6 x7 x8 x9 x10 x11 (ix2 b j)
      = cell (row512 x0 b) (row512 x2 b) (row512 x3 b) (row1024 x1 b)
          (fun n k => x4 (ix2 n k)) (fun n => x5 (ix1 n)) (fun n k => x6 (ix2 n k)) (fun n => x7 (ix1 n))
          (fun n k => x8 (ix2 n k)) (fun n => x9 (ix1 n)) (fun n k => x10 (ix2 n k)) (fun n => x11 (ix1 n)) j := by
  rw [update_entry]
  unfold cell
  have hd : (fun k => val_main_v8 (F := Ideal) x1 x3 x8 x9 (ix2 b k))
      = hdec (row512 x3 b) (row1024 x1 b) (fun n k => x8 (ix2 n k)) (fun n => x9 (ix1 n)) :=
    funext fun k => hdec_entry x1 x3 x8 x9 b k
  have hx : (fun i => val_main_v22 (F := Ideal) x0 x2 x10 x11 (ix2 b i))
      = xin (row512 x0 b) (row512 x2 b) (fun n k => x10 (ix2 n k)) (fun n => x11 (ix1 n)) :=
    funext fun i => xin_entry x0 x2 x10 x11 b i
  have hgi : (fun n => val_main_v27 (F := Ideal) x0 x2 x4 x5 x10 x11 (ix2 b n))
      = gi (xin (row512 x0 b) (row512 x2 b) (fun n k => x10 (ix2 n k)) (fun n => x11 (ix1 n)))
          (fun n k => x4 (ix2 n k)) (fun n => x5 (ix1 n)) :=
    funext fun n => by rw [gi_entry, hx]
  have hgh : (fun n => val_main_v32 (F := Ideal) x1 x3 x6 x7 x8 x9 (ix2 b n))
      = gh (hdec (row512 x3 b) (row1024 x1 b) (fun n k => x8 (ix2 n k)) (fun n => x9 (ix1 n)))
          (fun n k => x6 (ix2 n k)) (fun n => x7 (ix1 n)) :=
    funext fun n => by rw [gh_entry, hd]
  rw [hgi, hgh, hd]

/-- THE REFERENCE'S RESULT ARRAY is the whole-batch array `G` of the arguments. -/
theorem result_eq (m : (ℓ : Loc nD τ sig) → Buf (Elt Ideal) ℓ) (c : Dev nD) :
    (Cert.ReferenceIdeal.Value.res_main_v60 m c : S16384x1024.Idx → EReal)
      = G (m ((c.tc : Thread nD τ).loc main_arg0) : S16384x512.Idx → EReal) (m ((c.tc : Thread nD τ).loc main_arg1) : S16384x1024.Idx → EReal)
          (m ((c.tc : Thread nD τ).loc main_arg2) : S16384x512.Idx → EReal) (m ((c.tc : Thread nD τ).loc main_arg3) : S16384x512.Idx → EReal)
          (fun n k => (m ((c.tc : Thread nD τ).loc main_arg4) : S3072x512.Idx → EReal) (ix2 n k)) (fun n => (m ((c.tc : Thread nD τ).loc main_arg5) : S3072.Idx → EReal) (ix1 n))
          (fun n k => (m ((c.tc : Thread nD τ).loc main_arg6) : S3072x1024.Idx → EReal) (ix2 n k)) (fun n => (m ((c.tc : Thread nD τ).loc main_arg7) : S3072.Idx → EReal) (ix1 n))
          (fun n k => (m ((c.tc : Thread nD τ).loc main_arg8) : S1024x512.Idx → EReal) (ix2 n k)) (fun n => (m ((c.tc : Thread nD τ).loc main_arg9) : S1024.Idx → EReal) (ix1 n))
          (fun n k => (m ((c.tc : Thread nD τ).loc main_arg10) : S512x512.Idx → EReal) (ix2 n k)) (fun n => (m ((c.tc : Thread nD τ).loc main_arg11) : S512.Idx → EReal) (ix1 n)) := by
  rw [val_main_v60_eq]
  funext i
  obtain ⟨b, j, rfl⟩ : ∃ (b : Fin 16384) (j : Fin 1024), i = ix2 b j := ⟨i 0, i 1, eq_ix2 i⟩
  rw [result_entry, G_ix2]

end Cert.ReferenceIdeal.Cell

end
-- ==== Proof.lean ====
/-
  A GRU-D cell (a GRU whose hidden state and missing inputs decay with the time since the last observation), one
  Pallas kernel over a batch of 16384 rows in 64 blocks of 256, against its plain jnp reference.

  Per batch row both programs compute the same function on the extended reals (`Cert.GruD.cell`, Proof/Spec.lean):
  the hidden row decays by `exp (-(relu (Wdh · delta + bdh)))`, a missing input entry by
  `exp (-(relu (Wdx · x + bdx)))` and is blended with the mask, the two stacked gate pre-activations are affine in the
  blended input and in the decayed hidden row, and the new hidden entry is `(1 - u) · n + u · hdec` with the logistic
  reset and update gates and the tanh candidate. The two programs spell three things differently, and each pair is one
  function on the extended reals with no finiteness needed: the kernel negates by `0 - y` where the reference negates;
  the kernel applies the logistic function where the reference writes `1 / (1 + exp (-y))`, which is its definition; and
  the kernel multiplies narrowed operands against a transposed weight block where the reference multiplies the
  arguments against an explicit transpose — a change of float format is the identity and both products are the same sum
  `∑ k, a (row, k) · W (n, k)`. No sum is reordered and no factor is moved across a sum, so the precondition (finite
  inputs) is never opened.

  Proof/KernelCell.lean reads the kernel body at one entry of one block, Proof/KernelArrayBlocks.lean and
  Proof/KernelArraySiblings.lean read each window's block as rows of the arguments, Proof/KernelArray.lean puts the 64
  blocks together into the whole-batch array `Cert.GruD.G`; Proof/RefCell.lean reads the reference's host program at one
  entry and finds the same array. The three frames are the generated ones (the reference's is its generated run with the
  results dropped); the idealization rewrote nothing, so `preserves` is `True`.
-/
import proofs.«179894_j34333968564821_1_alg».proof.Defs
import proofs.«179894_j34333968564821_1_alg».proof.Proof.Gen.Kernel
import proofs.«179894_j34333968564821_1_alg».proof.Proof.Gen.Kernel.Skeleton
import proofs.«179894_j34333968564821_1_alg».proof.Proof.Gen.Kernel.Launch
import proofs.«179894_j34333968564821_1_alg».proof.Proof.Gen.Kernel.Points
import proofs.«179894_j34333968564821_1_alg».proof.Proof.Gen.Kernel.Frame
import proofs.«179894_j34333968564821_1_alg».proof.Proof.Gen.KernelIdeal
import proofs.«179894_j34333968564821_1_alg».proof.Proof.Gen.KernelIdeal.Skeleton
import proofs.«179894_j34333968564821_1_alg».proof.Proof.Gen.KernelIdeal.Launch
import proofs.«179894_j34333968564821_1_alg».proof.Proof.Gen.KernelIdeal.Points
import proofs.«179894_j34333968564821_1_alg».proof.Proof.Gen.KernelIdeal.Frame
import proofs.«179894_j34333968564821_1_alg».proof.Proof.Gen.ReferenceIdeal
import proofs.«179894_j34333968564821_1_alg».proof.Proof.Gen.Pre_finite_inputs
import proofs.«179894_j34333968564821_1_alg».proof.Proof.Gen.KernelIdeal.Value
import proofs.«179894_j34333968564821_1_alg».proof.Proof.Gen.ReferenceIdeal.Run
import proofs.«179894_j34333968564821_1_alg».proof.Proof.Gen.ReferenceIdeal.Read
import proofs.«179894_j34333968564821_1_alg».proof.Proof.KernelArray
import proofs.«179894_j34333968564821_1_alg».proof.Proof.RefCell
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its generated run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, both programs end with the whole-batch array `Cert.GruD.G` of the arguments in their
    result buffer (returned twice), entry `(b, j)` being the GRU-D cell of batch row `b`. -/
theorem algebraic : Cert.algebraic_KernelIdeal_ReferenceIdeal := by
  intro m ρ m' ρ' _ hagree
  refine ⟨fun c => Cert.KernelIdeal.Whole.result m c, fun c => Cert.KernelIdeal.Whole.result m c, ?_, ?_⟩
  · exact (θ_run Cert.KernelIdeal.defs _ _).mono (fun _ h c => ⟨(h c).1, (h c).1, (h c).2⟩)
      (Cert.KernelIdeal.Whole.run m ρ)
  · refine (θ_run Cert.ReferenceIdeal.defs _ _).mono (fun _ h c => ?_)
      (Cert.ReferenceIdeal.Value.run (F := Ideal) m' ρ')
    have e : Cert.ReferenceIdeal.Value.res_main_v60 m' c = Cert.KernelIdeal.Whole.result m c := by
      refine (Cert.ReferenceIdeal.Cell.result_eq m' c).trans ?_
      obtain ⟨a0, a1, a2, a3, a4, a5, a6, a7, a8, a9, a10, a11⟩ := hagree c
      rw [a0, a1, a2, a3, a4, a5, a6, a7, a8, a9, a10, a11]
      rfl
    exact ⟨(h c).1.trans e, (h c).2.1.trans e, (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
